-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_arg12 : IVec S600000 32) (main_v45 : IVec S_ 1) (main_v50 : IVec S600000 1) : IVec S_ 1 :=
  let main_c_19 : IVec S_ 1 := constantI S_ 1 1#1
  let main_v51 : IVec S_ 1 := (fun x v => Host.reduce IntOp.andi x v reducesTo_S600000_S_d0 h_S_) main_v50 main_c_19
  let main_v52 : IVec S_ 1 := andi main_v45 main_v51
  let main_c_20 : IVec S_ 32 := constantI S_ 32 0#32
  let main_v53 : IVec S600000 32 := broadcastInDim S600000 ![] bcast_S_S600000 main_c_20
  let main_v54 : IVec S600000 1 := cmpi .sge main_arg12 main_v53
  let main_c_21 : IVec S_ 32 := constantI S_ 32 50000#32
  let main_v55 : IVec S600000 32 := broadcastInDim S600000 ![] bcast_S_S600000 main_c_21
  let main_v56 : IVec S600000 1 := cmpi .slt main_arg12 main_v55
  let main_v57 : IVec S600000 1 := andi main_v54 main_v56
  let main_c_22 : IVec S_ 1 := constantI S_ 1 1#1
  let main_v58 : IVec S_ 1 := (fun x v => Host.reduce IntOp.andi x v reducesTo_S600000_S_d0 h_S_) main_v57 main_c_22
  let main_v59 : IVec S_ 1 := andi main_v52 main_v58
  main_v59

def fn_part2 {F : FTy → Type} [FloatOps F] (main_arg7 : FVec F S128 .f32) (main_arg8 : IVec S600000 32) (main_arg10 : IVec S600000 32) (main_arg12 : IVec S600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S600000 32 := broadcastInDim S600000 ![] bcast_S_S600000 main_c_14
  let main_v40 : IVec S600000 1 := cmpi .sge main_arg8 main_v39
  let main_c_15 : IVec S_ 32 := constantI S_ 32 50000#32
  let main_v41 : IVec S600000 32 := broadcastInDim S600000 ![] bcast_S_S600000 main_c_15
  let main_v42 : IVec S600000 1 := cmpi .slt main_arg8 main_v41
  let main_v43 : IVec S600000 1 := andi main_v40 main_v42
  let main_c_16 : IVec S_ 1 := constantI S_ 1 1#1
  let main_v44 : IVec S_ 1 := (fun x v => Host.reduce IntOp.andi x v reducesTo_S600000_S_d0 h_S_) main_v43 main_c_16
  let main_v45 : IVec S_ 1 := andi main_v38 main_v44
  let main_c_17 : IVec S_ 32 := constantI S_ 32 0#32
  let main_v46 : IVec S600000 32 := broadcastInDim S600000 ![] bcast_S_S600000 main_c_17
  let main_v47 : IVec S600000 1 := cmpi .sge main_arg10 main_v46
  let main_c_18 : IVec S_ 32 := constantI S_ 32 50000#32
  let main_v48 : IVec S600000 32 := broadcastInDim S600000 ![] bcast_S_S600000 main_c_18
  let main_v49 : IVec S600000 1 := cmpi .slt main_arg10 main_v48
  let main_v50 : IVec S600000 1 := andi main_v47 main_v49
  fn_part3 (F := F) main_arg12 main_v45 main_v50

def fn_part1 {F : FTy → Type} [FloatOps F] (main_arg4 : FVec F S128x128 .f32) (main_arg5 : FVec F S128 .f32) (main_arg6 : FVec F S128x128 .f32) (main_arg7 : FVec F S128 .f32) (main_arg8 : IVec S600000 32) (main_arg10 : IVec S600000 32) (main_arg12 : IVec S600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg10 main_arg12 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S600000 32) (main_arg9 : IVec S600000 32) (main_arg10 : IVec S600000 32) (main_arg11 : IVec S600000 32) (main_arg12 : IVec S600000 32) (main_arg13 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg10 main_arg12 main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S128x256 : Shape := ⟨2, ![128, 256]⟩
abbrev S256 : Shape := ⟨1, ![256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S50000 : Shape := ⟨1, ![50000]⟩
abbrev S50000x1 : Shape := ⟨2, ![50000, 1]⟩
abbrev S1x50000x128 : Shape := ⟨3, ![1, 50000, 128]⟩
abbrev S2x50000x128 : Shape := ⟨3, ![2, 50000, 128]⟩

abbrev nBuf : Space → Nat
  | .hbm => 146
  | .vmem => 12
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S600000, .i32⟩
  | 9 => ⟨S600000, .i32⟩
  | 10 => ⟨S600000, .i32⟩
  | 11 => ⟨S600000, .i32⟩
  | 12 => ⟨S600000, .i32⟩
  | 13 => ⟨S600000, .i32⟩
  | 14 => ⟨S128x128, .f32⟩
  | 15 => ⟨S128x128, .f32⟩
  | 16 => ⟨S128x256, .f32⟩
  | 17 => ⟨S256, .f32⟩
  | 18 => ⟨S1x256, .f32⟩
  | 19 => ⟨S50000x256, .f32⟩
  | 20 => ⟨S50000x128, .f32⟩
  | 21 => ⟨S50000x128, .f32⟩
  | 22 => ⟨S128x128, .f32⟩
  | 23 => ⟨S1x128, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S1, .i32⟩
  | 34 => ⟨S_, .i32⟩
  | 35 => ⟨S600000x1, .i32⟩
  | 36 => ⟨S600000x1, .i1⟩
  | 37 => ⟨S1x1, .i32⟩
  | 38 => ⟨S600000x1, .i32⟩
  | 39 => ⟨S600000x1, .i1⟩
  | 40 => ⟨S600000x1, .i1⟩
  | 41 => ⟨S_, .i1⟩
  | 42 => ⟨S600000, .i1⟩
  | 43 => ⟨S600000x128, .f32⟩
  | 44 => ⟨S600000x128, .i1⟩
  | 45 => ⟨S_, .f32⟩
  | 46 => ⟨S600000x128, .f32⟩
  | 47 => ⟨S600000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S1, .i32⟩
  | 57 => ⟨S_, .i32⟩
  | 58 => ⟨S600000x1, .i32⟩
  | 59 => ⟨S600000x1, .i1⟩
  | 60 => ⟨S1x1, .i32⟩
  | 61 => ⟨S600000x1, .i32⟩
  | 62 => ⟨S600000x1, .i1⟩
  | 63 => ⟨S600000x1, .i1⟩
  | 64 => ⟨S_, .i1⟩
  | 65 => ⟨S600000, .i1⟩
  | 66 => ⟨S600000x128, .f32⟩
  | 67 => ⟨S600000x128, .i1⟩
  | 68 => ⟨S_, .f32⟩
  | 69 => ⟨S600000x128, .f32⟩
  | 70 => ⟨S600000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S1, .i32⟩
  | 80 => ⟨S_, .i32⟩
  | 81 => ⟨S600000x1, .i32⟩
  | 82 => ⟨S600000x1, .i1⟩
  | 83 => ⟨S1x1, .i32⟩
  | 84 => ⟨S600000x1, .i32⟩
  | 85 => ⟨S600000x1, .i1⟩
  | 86 => ⟨S600000x1, .i1⟩
  | 87 => ⟨S_, .i1⟩
  | 88 => ⟨S600000, .i1⟩
  | 89 => ⟨S600000x128, .f32⟩
  | 90 => ⟨S600000x128, .i1⟩
  | 91 => ⟨S_, .f32⟩
  | 92 => ⟨S600000x128, .f32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S_, .f32⟩
  | 99 => ⟨S600000, .f32⟩
  | 100 => ⟨S_, .f32⟩
  | 101 => ⟨S50000, .f32⟩
  | 102 => ⟨S600000x1, .i32⟩
  | 103 => ⟨S50000, .f32⟩
  | 104 => ⟨S50000x1, .f32⟩
  | 105 => ⟨S_, .f32⟩
  | 106 => ⟨S50000x1, .f32⟩
  | 107 => ⟨S50000x1, .f32⟩
  | 108 => ⟨S50000x128, .f32⟩
  | 109 => ⟨S50000x128, .f32⟩
  | 110 => ⟨S_, .f32⟩
  | 111 => ⟨S50000x128, .f32⟩
  | 112 => ⟨S600000x1, .i32⟩
  | 113 => ⟨S50000x128, .f32⟩
  | 114 => ⟨S_, .f32⟩
  | 115 => ⟨S600000, .f32⟩
  | 116 => ⟨S_, .f32⟩
  | 117 => ⟨S50000, .f32⟩
  | 118 => ⟨S600000x1, .i32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S600000x1, .i32⟩
  | 1 => ⟨S50000x128, .f32⟩
  | 2 => ⟨S_, .f32⟩
  | 3 => ⟨S600000, .f32⟩
  | 4 => ⟨S_, .f32⟩
  | 5 => ⟨S50000, .f32⟩
  | 6 => ⟨S600000x1, .i32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x128, .f32⟩
  | 15 => ⟨S1x50000x128, .f32⟩
  | 16 => ⟨S1x50000x128, .f32⟩
  | 17 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v11 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v12 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v13 : Ref sig .tc := ⟨.hbm, 93, rfl⟩
abbrev main_cst : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_cst_0 : Ref sig .tc := ⟨.hbm, 98, rfl⟩
abbrev main_v17 : Ref sig .tc := ⟨.hbm, 99, rfl⟩
abbrev main_cst_1 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩
abbrev main_cst_2 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_cst_3 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_4 : Ref sig .tc := ⟨.hbm, 114, rfl⟩
abbrev main_v29 : Ref sig .tc := ⟨.hbm, 115, rfl⟩
abbrev main_cst_5 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_cst_6 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_cst_7 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_cst_8 : Ref sig .tc := ⟨.hbm, 130, rfl⟩
abbrev main_v41 : Ref sig .tc := ⟨.hbm, 131, rfl⟩
abbrev main_cst_9 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_cst_10 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S5000x128_S128x256_S5000x256_1_0_0_1_n_n_wf : DotDims.WF S5000x128 S128x256 S5000x256 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x50000x128 : Shape := ⟨3, ![1, 50000, 128]⟩
abbrev S2x50000x128 : Shape := ⟨3, ![2, 50000, 128]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S_, .f32⟩
  | .hbm, ⟨33, _⟩ => ⟨S600000, .f32⟩
  | .hbm, ⟨34, _⟩ => ⟨S_, .f32⟩
  | .hbm, ⟨35, _⟩ => ⟨S50000, .f32⟩
  | .hbm, ⟨36, _⟩ => ⟨S600000x1, .i32⟩
  | .hbm, ⟨37, _⟩ => ⟨S50000, .f32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S50000, .f32⟩
  | .hbm, ⟨66, _⟩ => ⟨S600000x1, .i32⟩
  | .hbm, ⟨67, _⟩ => ⟨S50000, .f32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S_, .f32⟩
  | .hbm, ⟨94, _⟩ => ⟨S600000, .f32⟩
  | .hbm, ⟨95, _⟩ => ⟨S_, .f32⟩
  | .hbm, ⟨96, _⟩ => ⟨S50000, .f32⟩
  | .hbm, ⟨97, _⟩ => ⟨S600000x1, .i32⟩
  | .hbm, ⟨98, _⟩ => ⟨S50000, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S1x50000x128, .f32⟩
  | .hbm, ⟨106, _⟩ => ⟨S1x50000x128, .f32⟩
  | .hbm, ⟨107, _⟩ => ⟨S2x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.LibMask.lean ====
/-
  Two facts about masks of one-bit words, for reading a guarded gather.

  A reduction by conjunction starts from its initial value and conjoins, in some order, the operand's entries that
  reduce into the result entry at hand; when the initial value is 1 and every operand entry is 1, every step
  conjoins 1 with 1, so the result is 1 whatever the order and whatever the set of entries.

  A selection under a mask that is 1 at every index returns its first alternative at every index, so it IS the
  first alternative; the second alternative (here: a fill value for reads that are out of range) is never read.
-/
import Idealize.ShloMosaic.Lib.ReduceAll

noncomputable section

namespace Cert.LibMask

open Idealize.ShloMosaic

/-- A left fold by conjunction that starts at 1 and meets only 1s ends at 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => by
    refine foldl_andi_of_all f l _ ?_ (fun n hn => hf n (List.mem_cons_of_mem _ hn))
    show IntOp.andi init (f a) = 1#1
    rw [h, hf a List.mem_cons_self]; decide

variable {s t u : Shape} {axes : List (Fin s.rank)}

/-- A reduction by conjunction of an all-ones mask from an all-ones initial value is 1 at every result index. -/
theorem reduce_andi_of_all (x : s.Idx → BitVec 1) (init : u.Idx → BitVec 1) (h : s.ReducesTo axes t) (hu : 0 < u.numel)
    (hx : ∀ i, x i = 1#1) (hinit : ∀ k, init k = 1#1) (j : t.Idx) :
    Host.reduce IntOp.andi x init h hu j = 1#1 := by
  rw [Host.reduce_eq_foldl]
  exact foldl_andi_of_all x _ _ (hinit _) (fun n _ => hx n)

/-- A selection under a mask that is 1 everywhere is its first alternative. -/
theorem select_of_all_one {α : Type} (c : IVec s 1) (a b : s.Idx → α) (hc : ∀ i, c i = 1#1) : select c a b = a := by
  funext i
  show Scalar.select (c i) (a i) (b i) = a i
  unfold Scalar.select
  exact if_pos (hc i)

end Cert.LibMask

end
-- ==== Proof.Tail.lean ====
/-
  The part of the layer that follows the three projections, as one function of the projected tables.

  For one relation: the edge list's source indices (a negative one counted from the end of the table) pick one row of the
  50000 × 128 projected table per edge; the picked rows are added up per destination node, the edges are counted per
  destination node, and the sum is divided by the count, a count of zero replaced by one.  The node features of the
  first node type add the means of the two relations that end there; the layer's result stacks the two node types.

  The kernel's program picks rows with a guarded read: a row whose start index is outside 0 … 49999 is replaced by a fill
  value.  When every source index is in [0, 50000) — as the precondition says — the index is its own normal form, the
  guard's mask is 1 on every edge, and the guarded read IS the plain read.
-/
import proofs.«409904_j11716670783786_2_alg».proof.Proof.Gen.KernelIdeal
import proofs.«409904_j11716670783786_2_alg».proof.Proof.LibMask
import Idealize.ShloMosaic.Lib.Affine

noncomputable section

namespace Cert.KernelIdeal.Tail

open Idealize.ShloMosaic Cert.KernelIdeal Cert.KernelIdeal.Gen

variable {F : FTy → Type} [FloatOps F]

/-- The start indices as a column: a negative index counted from the table's end, the others as they are. -/
def startCol (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 50000#32))) a)

/-- The guard's mask: per edge, whether the start index is in 0 … 49999, laid along the 128 columns. -/
def inRange (I : IVec S600000x1 32) : IVec S600000x128 1 :=
  broadcastInDim S600000x128 ![0] bcast_S600000_S600000x128_0
    (Host.reduce IntOp.andi
      (andi (cmpi .sge I (broadcastInDim S600000x1 ![] bcast_S_S600000x1 (constantI S_ 32 0#32)))
        (cmpi .sle I (broadcastInDim S600000x1 ![0, 1] bcast_S1x1_S600000x1_0_1
          (broadcastInDim S1x1 ![1] bcast_S1_S1x1_1 (constantI S1 32 49999#32)))))
      (constantI S_ 1 1#1) reducesTo_S600000x1_S600000_d1 h_S_)

/-- One row of the table per edge, by the plain read. -/
def gatherRows (W : FVec F S50000x128 .f32) (a : IVec S600000 32) : FVec F S600000x128 .f32 :=
  Host.gather gather_S50000x128_S600000x1_S600000x128_1_0_n_n_0_1_1128 W (startCol a)

/-- One row of the table per edge, by the guarded read: the fill value where the start index is out of range. -/
def takeRows (W : FVec F S50000x128 .f32) (a : IVec S600000 32) : FVec F S600000x128 .f32 :=
  select (inRange (startCol a)) (gatherRows W a)
    (broadcastInDim S600000x128 ![] bcast_S_S600000x128 (constant S_ .f32 0x7FC00000#32))

/-- The per-destination mean of the edges' rows: their sum over the count, a zero count replaced by one. -/
def segMean (g : FVec F S600000x128 .f32) (d : IVec S600000 32) : FVec F S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 d) g)
    (broadcastInDim S50000x128 ![0, 1] bcast_S50000x1_S50000x128_0_1
      (maximumf
        (broadcastInDim S50000x1 ![0] bcast_S50000_S50000x1_0
          (Host.scatterAdd scatter_S50000_S600000x1_S600000_n_0_0_1
            (broadcastInDim S50000 ![] bcast_S_S50000 (constant S_ .f32 0x00000000#32))
            (broadcastInDim S600000x1 ![0] bcast_S600000_S600000x1_0 d)
            (broadcastInDim S600000 ![] bcast_S_S600000 (constant S_ .f32 0x3F800000#32))))
        (broadcastInDim S50000x1 ![] bcast_S_S50000x1 (constant S_ .f32 0x3F800000#32))))

/-- The two node types' features stacked. -/
def stacked (hu hv : FVec F S50000x128 .f32) : FVec F S2x50000x128 .f32 :=
  concatenate S2x50000x128 0
    [⟨S1x50000x128, broadcastInDim S1x50000x128 ![1, 2] bcast_S50000x128_S1x50000x128_1_2 hu⟩,
     ⟨S1x50000x128, broadcastInDim S1x50000x128 ![1, 2] bcast_S50000x128_S1x50000x128_1_2 hv⟩]
    concatenates_S1x50000x128_S1x50000x128_S2x50000x128_d0

/-- The layer's result from the three rows-per-edge arrays and the three destination lists. -/
def outOf (guu guv gvu : FVec F S600000x128 .f32) (duu duv dvu : IVec S600000 32) : FVec F S2x50000x128 .f32 :=
  stacked (addf (segMean guu duu) (segMean gvu dvu)) (segMean guv duv)

/-- A source index in [0, 50000) is its own normal form, in 0 … 49999. -/
theorem startCol_range (a : IVec S600000 32) (ha : ∀ e, 0 ≤ (a e).toInt ∧ (a e).toInt < 50000) (i : S600000x1.Idx) :
    0 ≤ (startCol a i).toInt ∧ (startCol a i).toInt ≤ 49999 := by
  unfold startCol broadcastInDim
  dsimp only
  generalize (fun a_1 : Fin S600000.rank => _ : S600000.Idx) = e
  obtain ⟨h0, h1⟩ := ha e
  have hn : IntOp.cmpi .slt (a e) 0#32 ≠ 1#1 := by
    intro h
    have := IntOp.cmpi_slt.1 h
    rw [show (0#32 : BitVec 32).toInt = 0 from by decide] at this
    omega
  show 0 ≤ (Scalar.select (IntOp.cmpi .slt (a e) 0#32) (IntOp.addi (a e) 50000#32) (a e)).toInt
    ∧ (Scalar.select (IntOp.cmpi .slt (a e) 0#32) (IntOp.addi (a e) 50000#32) (a e)).toInt ≤ 49999
  unfold Scalar.select
  rw [if_neg (show ¬ (IntOp.cmpi .slt (a e) 0#32 = 1) from hn)]
  omega

/-- With every start index in range the guard's mask is 1 everywhere. -/
theorem inRange_one (I : IVec S600000x1 32) (hI : ∀ i, 0 ≤ (I i).toInt ∧ (I i).toInt ≤ 49999) (j : S600000x128.Idx) :
    inRange I j = 1#1 := by
  unfold inRange broadcastInDim
  dsimp only
  refine Cert.LibMask.reduce_andi_of_all _ _ _ _ (fun i => ?_) (fun _ => rfl) _
  obtain ⟨h0, h1⟩ := hI i
  have z0 : (0#32 : BitVec 32).toInt = 0 := by decide
  have z1 : (49999#32 : BitVec 32).toInt = 49999 := by decide
  have c1 : IntOp.cmpi .sge (I i) 0#32 = 1#1 := IntOp.cmpi_sge.2 (by rw [z0]; exact h0)
  have c2 : IntOp.cmpi .sle (I i) 49999#32 = 1#1 := IntOp.cmpi_sle.2 (by rw [z1]; exact h1)
  show IntOp.andi (IntOp.cmpi .sge (I i) 0#32) (IntOp.cmpi .sle (I i) 49999#32) = 1#1
  rw [c1, c2]; decide

/-- THE GUARDED READ IS THE PLAIN READ when every source index is in [0, 50000). -/
theorem takeRows_eq_gatherRows (W : FVec F S50000x128 .f32) (a : IVec S600000 32)
    (ha : ∀ e, 0 ≤ (a e).toInt ∧ (a e).toInt < 50000) : takeRows W a = gatherRows W a := by
  unfold takeRows
  exact Cert.LibMask.select_of_all_one _ _ _ (inRange_one _ (startCol_range a ha))

end Cert.KernelIdeal.Tail

end
-- ==== Proof.KTake0.lean ====
/-
  The first guarded read of the kernel's program: its stretch of operations normalises the source indices (a negative one
  counted from the table's end), tests each against 0 … 49999, reads one row of the table per edge, and replaces the rows
  of out-of-range indices by a fill value.
-/
import proofs.«409904_j11716670783786_2_alg».proof.Proof.Gen.KernelIdeal.Frame
import proofs.«409904_j11716670783786_2_alg».proof.Proof.Tail
import Idealize.ShloMosaic.Lib.StableHlo.Run
import Idealize.ShloMosaic.PureOps.Ideal

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 40000000 in
theorem take0_4 (c : Dev nD) : W5 m ρ c (Proc.devRef .tc main_v11) = Tail.takeRows (F := Ideal) (W4 m ρ c (Proc.devRef .tc main_v6)) (W4 m ρ c (Proc.devRef .tc main_arg8)) := by
  show StableHlo.after hostOps2 (W4 m ρ c) (Proc.devRef .tc main_v11) = _
  generalize W4 m ρ c = W
  after_results_simp
  simp only [StableHlo.TRef.ofBuf, StableHlo.TRef.toBuf, cast_eq]
  rfl

end Cert.KernelIdeal.Out

end
-- ==== Proof.KTake1.lean ====
/-
  The second guarded read of the kernel's program: its stretch of operations normalises the source indices (a negative one
  counted from the table's end), tests each against 0 … 49999, reads one row of the table per edge, and replaces the rows
  of out-of-range indices by a fill value.
-/
import proofs.«409904_j11716670783786_2_alg».proof.Proof.Gen.KernelIdeal.Frame
import proofs.«409904_j11716670783786_2_alg».proof.Proof.Tail
import proofs.«409904_j11716670783786_2_alg».proof.Proof.KTake0
import Idealize.ShloMosaic.Lib.StableHlo.Run
import Idealize.ShloMosaic.PureOps.Ideal

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 40000000 in
theorem take1_5 (c : Dev nD) : W6 m ρ c (Proc.devRef .tc main_v12) = Tail.takeRows (F := Ideal) (W5 m ρ c (Proc.devRef .tc main_v7)) (W5 m ρ c (Proc.devRef .tc main_arg10)) := by
  show StableHlo.after hostOps2_1 (W5 m ρ c) (Proc.devRef .tc main_v12) = _
  generalize W5 m ρ c = W
  after_results_simp
  simp only [StableHlo.TRef.ofBuf, StableHlo.TRef.toBuf, cast_eq]
  rfl

end Cert.KernelIdeal.Out

end
-- ==== Proof.KTake2.lean ====
/-
  The third guarded read of the kernel's program: its stretch of operations normalises the source indices (a negative one
  counted from the table's end), tests each against 0 … 49999, reads one row of the table per edge, and replaces the rows
  of out-of-range indices by a fill value.
-/
import proofs.«409904_j11716670783786_2_alg».proof.Proof.Gen.KernelIdeal.Frame
import proofs.«409904_j11716670783786_2_alg».proof.Proof.Tail
import proofs.«409904_j11716670783786_2_alg».proof.Proof.KTake1
import Idealize.ShloMosaic.Lib.StableHlo.Run
import Idealize.ShloMosaic.PureOps.Ideal

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 40000000 in
theorem take2_6 (c : Dev nD) : W7 m ρ c (Proc.devRef .tc main_v13) = Tail.takeRows (F := Ideal) (W6 m ρ c (Proc.devRef .tc main_v10)) (W6 m ρ c (Proc.devRef .tc main_arg12)) := by
  show StableHlo.after hostOps2_2 (W6 m ρ c) (Proc.devRef .tc main_v13) = _
  generalize W6 m ρ c = W
  after_results_simp
  simp only [StableHlo.TRef.ofBuf, StableHlo.TRef.toBuf, cast_eq]
  rfl

end Cert.KernelIdeal.Out

end
-- ==== Proof.KOut7.lean ====
/-
  The last stretch of the kernel's program: from the three rows-per-edge arrays and the three destination lists to the
  result.  Its operations are, in order, the three per-destination means (sum of the edges' rows per destination, count of
  the edges per destination, the count raised to at least one, the quotient), the sum of the two means that end at the
  first node type, and the stack of the two node types.
-/
import proofs.«409904_j11716670783786_2_alg».proof.Proof.Gen.KernelIdeal.Frame
import proofs.«409904_j11716670783786_2_alg».proof.Proof.Tail
import proofs.«409904_j11716670783786_2_alg».proof.Proof.KTake2
import Idealize.ShloMosaic.Lib.StableHlo.Run
import Idealize.ShloMosaic.PureOps.Ideal

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 40000000 in
theorem out_7 (c : Dev nD) : W8 m ρ c (Proc.devRef .tc main_v53) =
    Tail.outOf (F := Ideal) (W7 m ρ c (Proc.devRef .tc main_v11)) (W7 m ρ c (Proc.devRef .tc main_v12)) (W7 m ρ c (Proc.devRef .tc main_v13))
      (W7 m ρ c (Proc.devRef .tc main_arg9)) (W7 m ρ c (Proc.devRef .tc main_arg11)) (W7 m ρ c (Proc.devRef .tc main_arg13)) := by
  show StableHlo.after hostOps2_3 (W7 m ρ c) (Proc.devRef .tc main_v53) = _
  generalize W7 m ρ c = W
  after_results <;> rfl

end Cert.KernelIdeal.Out

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.RegionPay.lean ====
/-
  What a projection kernel stores, read at one entry.

  Each grid point multiplies a 5000 × 128 block of features by the whole 128 × N weight matrix (N = 256 in the first call,
  128 in the second) and adds the 1 × N bias row to every row of the product.  Over the extended reals the narrowing of
  the two factors to a 16-bit format is the identity, the accumulator starts at zero, and entry (p, q) of the product is
  Σₖ x(p, k) · w(k, q); the bias row broadcast down the rows contributes b(0, q).  So the stored block holds
  Σₖ x(p, k) · w(k, q) + b(0, q) at (p, q).
-/
import proofs.«409904_j11716670783786_2_alg».proof.Proof.Gen.KernelIdeal.Skeleton
import proofs.«409904_j11716670783786_2_alg».proof.Proof.LibDotPlain
import Idealize.ShloMosaic.Lib.Pipeline.Value
import Idealize.ShloMosaic.Lib.ValueIdx

noncomputable section

namespace Cert.KernelIdeal.RegionPay

open Idealize.ShloMosaic Idealize.ShloMosaic.ValueIdx Cert.KernelIdeal Cert.KernelIdeal.Gen

/-- The bias row broadcast down 5000 rows reads the row at the column. -/
theorem bias256_apply (x2 : Vec Ideal S1x256 .f32) (p : Fin 5000) (q : Fin 256) :
    broadcastTo S5000x256 x2 broadcasts_S1x256_S5000x256 (ix2 p q) = x2 (ix2 0 q) :=
  broadcastTo_apply x2 broadcasts_S1x256_S5000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

theorem bias128_apply (x2 : Vec Ideal S1x128 .f32) (p : Fin 5000) (q : Fin 128) :
    broadcastTo S5000x128 x2 broadcasts_S1x128_S5000x128 (ix2 p q) = x2 (ix2 0 q) :=
  broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- Entry (p, q) of what the first call's body stores: Σₖ x(p, k) · w(k, q) + b(0, q). -/
theorem pay256_apply (x0 : Vec Ideal S5000x128 .f32) (x1 : Vec Ideal S128x256 .f32) (x2 : Vec Ideal S1x256 .f32)
    (p : Fin 5000) (q : Fin 256) :
    k0_pay1 (F := Ideal) x0 x1 x2 (ix2 p q) = (∑ k : Fin 128, x0 (ix2 p k) * x1 (ix2 k q)) + x2 (ix2 0 q) := by
  unfold k0_pay1
  rw [shapeCast_self, shapeCast_self]
  refine congrArg₂ (· + ·) ?_ (bias256_apply x2 p q)
  exact Cert.LibDot.mm_plain 5000 128 256 (truncf .bf16 x0 bitsLt_bf16_f32) (truncf .bf16 x1 bitsLt_bf16_f32) p q

/-- Entry (p, q) of what the second call's body stores: Σₖ x(p, k) · w(k, q) + b(0, q). -/
theorem pay128_apply (x0 : Vec Ideal S5000x128 .f32) (x1 : Vec Ideal S128x128 .f32) (x2 : Vec Ideal S1x128 .f32)
    (p : Fin 5000) (q : Fin 128) :
    k1_pay1 (F := Ideal) x0 x1 x2 (ix2 p q) = (∑ k : Fin 128, x0 (ix2 p k) * x1 (ix2 k q)) + x2 (ix2 0 q) := by
  unfold k1_pay1
  rw [shapeCast_self, shapeCast_self]
  refine congrArg₂ (· + ·) ?_ (bias128_apply x2 p q)
  exact Cert.LibDot.mm_plain 5000 128 128 (truncf .bf16 x0 bitsLt_bf16_f32) (truncf .bf16 x1 bitsLt_bf16_f32) p q

end Cert.KernelIdeal.RegionPay

end
-- ==== Proof.Region0.lean ====
/-
  The array a projection call leaves behind, as one function of the arrays it reads.

  The call runs 10 grid points.  Point t reads rows 5000·t … 5000·t + 4999 of the 50000 × 128 feature array, the whole
  128 × 256 weight matrix and the whole 1 × 256 bias row, and writes rows 5000·t … 5000·t + 4999 of the 50000 × 256
  output.  Entry (p, q) of the block it writes is Σₖ x(5000·t + p, k) · w(k, q) + b(0, q): the block is the restriction of
  ONE whole-array function — row r, column q ↦ Σₖ x(r, k) · w(k, q) + b(0, q) — to the point's rows.  The ten row blocks
  tile the output (row r belongs to point r / 5000), so after the call the output array is that function.
-/
import proofs.«409904_j11716670783786_2_alg».proof.Proof.Gen.KernelIdeal.Frame
import proofs.«409904_j11716670783786_2_alg».proof.Proof.RegionPay
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row r, column q ↦ Σₖ x(r, k) · w(k, q) + b(0, q). -/
def proj (x : S50000x128.Idx → Elt Ideal .f32) (w : S128x256.Idx → Elt Ideal .f32) (b : S1x256.Idx → Elt Ideal .f32) :
    S50000x256.Idx → Elt Ideal .f32 :=
  fun i => (∑ k : Fin 128, x (ix2 (⟨(i 0).val, (i 0).isLt⟩ : Fin 50000) k) * w (ix2 k (⟨(i 1).val, (i 1).isLt⟩ : Fin 256)))
    + b (ix2 (0 : Fin 1) (⟨(i 1).val, (i 1).isLt⟩ : Fin 256))

/-- The printed index maps over the grid: the feature and output windows move down the rows with the point, the weight
    and bias windows stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block is some point's. -/
theorem idx_onto : ∀ (q0 : Fin 10), ∃ t : Fin cfg0.N, t.val = q0.val :=
  fun q0 => ⟨⟨q0.val, by rw [show cfg0.N = 10 from by decide]; exact q0.isLt⟩, rfl⟩

/-- The feature block of point t at (p, k) is the feature array at (5000·t + p, k). -/
theorem xblk_apply (c : Dev nD) (t : Fin cfg0.N) (p : Fin 5000) (k : Fin 128) (r : Fin 50000) (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block of any point is the whole weight matrix. -/
theorem wblk_apply (c : Dev nD) (t : Fin cfg0.N) (k : Fin 128) (q : Fin 256) :
    iblk0 V c 1 t (ix2 k q) = V c main_v2 (ix2 k q) := by
  obtain ⟨-, -, e2, e3, -⟩ := idx_facts t
  show V c main_v2 (((cfg0.win 1).blk t).view.emb (ix2 k q)) = V c main_v2 (ix2 k q)
  refine congrArg (V c main_v2) (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The bias block of any point is the whole bias row. -/
theorem bblk_apply (c : Dev nD) (t : Fin cfg0.N) (z : Fin 1) (q : Fin 256) :
    iblk0 V c 2 t (ix2 z q) = V c main_v4 (ix2 z q) := by
  obtain ⟨-, -, -, -, e4, e5, -⟩ := idx_facts t
  show V c main_v4 (((cfg0.win 2).blk t).view.emb (ix2 z q)) = V c main_v4 (ix2 z q)
  refine congrArg (V c main_v4) (funext fun a => Fin.ext ?_)
  match a with
  | ⟨0, _⟩ => show win0_2.index t (0 : Fin 2) * 1 + 1 * z.val = z.val; omega
  | ⟨1, _⟩ => show win0_2.index t (1 : Fin 2) * 256 + 1 * q.val = q.val; omega

/-- WHAT POINT t WRITES BACK is block t of the whole-array function of the arrays as the call finds them. -/
theorem flushed_eq (c : Dev nD) (t : Fin cfg0.N) :
    (dat0 V c).flushed 3 t = ((cfg0.win 3).blk t).view.read (Elt Ideal) (proj (V c main_arg0) (V c main_v2) (V c main_v4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨-, -, -, -, -, -, e6, e7⟩ := idx_facts t
  funext j
  obtain ⟨p, q, rfl⟩ : ∃ (p : Fin 5000) (q : Fin 256), j = ix2 p q := ⟨j 0, j 1, eq_ix2 j⟩
  have ht : t.val < 10 := lt_of_lt_of_eq t.isLt (show cfg0.N = 10 from by decide)
  have hrow : ((((cfg0.win 3).blk t).view.emb (ix2 p q)) 0).val = t.val * 5000 + p.val := by
    show win0_3.index t (0 : Fin 2) * 5000 + 1 * p.val = _; omega
  have hcol : ((((cfg0.win 3).blk t).view.emb (ix2 p q)) 1).val = q.val := by
    show win0_3.index t (1 : Fin 2) * 256 + 1 * q.val = _; omega
  refine (RegionPay.pay256_apply (iblk0 V c 0 t) (iblk0 V c 1 t) (iblk0 V c 2 t) p q).trans ?_
  show _ = proj (V c main_arg0) (V c main_v2) (V c main_v4) (((cfg0.win 3).blk t).view.emb (ix2 p q))
  unfold proj
  have hq : (⟨((((cfg0.win 3).blk t).view.emb (ix2 p q)) 1).val, ((((cfg0.win 3).blk t).view.emb (ix2 p q)) 1).isLt⟩ : Fin 256) = q := Fin.ext hcol
  rw [hq, bblk_apply V c t 0 q]
  refine congrArg (· + V c main_v4 (ix2 (0 : Fin 1) q)) (Finset.sum_congr rfl fun k _ => ?_)
  rw [wblk_apply V c t k q, xblk_apply V c t p k ⟨_, ((((cfg0.win 3).blk t).view.emb (ix2 p q)) 0).isLt⟩ hrow]

/-- An index of the output is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v5).slice (win0_3.rect t)).set ↔ _
  rw [View.set_slice_whole, Rect.mem_set_unit]
  exact Iff.rfl

/-- Every index of the output is in the block of the point its row belongs to. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 5000, by omega⟩
  have ht' : t.val = (i 0).val / 5000 := ht
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE OUTPUT ARRAY after the call is the whole-array function of the arrays the call reads. -/
theorem final (c : Dev nD) :
    (dat0 V c).arrAt 3 cfg0.N = proj (V c main_arg0) (V c main_v2) (V c main_v4) :=
  (dat0 V c).arrAt_eq_of_cover 3 _ (fun t _ => flushed_eq V c t) cover

end Cert.KernelIdeal.Region0

end
-- ==== Proof.Region1.lean ====
/-
  The array a projection call leaves behind, as one function of the arrays it reads.

  The call runs 10 grid points.  Point t reads rows 5000·t … 5000·t + 4999 of the 50000 × 128 feature array, the whole
  128 × 128 weight matrix and the whole 1 × 128 bias row, and writes rows 5000·t … 5000·t + 4999 of the 50000 × 128
  output.  Entry (p, q) of the block it writes is Σₖ x(5000·t + p, k) · w(k, q) + b(0, q): the block is the restriction of
  ONE whole-array function — row r, column q ↦ Σₖ x(r, k) · w(k, q) + b(0, q) — to the point's rows.  The ten row blocks
  tile the output (row r belongs to point r / 5000), so after the call the output array is that function.
-/
import proofs.«409904_j11716670783786_2_alg».proof.Proof.Gen.KernelIdeal.Frame
import proofs.«409904_j11716670783786_2_alg».proof.Proof.RegionPay
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row r, column q ↦ Σₖ x(r, k) · w(k, q) + b(0, q). -/
def proj (x : S50000x128.Idx → Elt Ideal .f32) (w : S128x128.Idx → Elt Ideal .f32) (b : S1x128.Idx → Elt Ideal .f32) :
    S50000x128.Idx → Elt Ideal .f32 :=
  fun i => (∑ k : Fin 128, x (ix2 (⟨(i 0).val, (i 0).isLt⟩ : Fin 50000) k) * w (ix2 k (⟨(i 1).val, (i 1).isLt⟩ : Fin 128)))
    + b (ix2 (0 : Fin 1) (⟨(i 1).val, (i 1).isLt⟩ : Fin 128))

/-- The printed index maps over the grid: the feature and output windows move down the rows with the point, the weight
    and bias windows stay put. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ (q0 : Fin 10), ∃ t : Fin cfg1.N, t.val = q0.val :=
  fun q0 => ⟨⟨q0.val, by rw [show cfg1.N = 10 from by decide]; exact q0.isLt⟩, rfl⟩

/-- The feature block of point t at (p, k) is the feature array at (5000·t + p, k). -/
theorem xblk_apply (c : Dev nD) (t : Fin cfg1.N) (p : Fin 5000) (k : Fin 128) (r : Fin 50000) (hr : r.val = t.val * 5000 + p.val) :
    iblk1 V c 0 t (ix2 p k) = V c main_arg1 (ix2 r k) := by
  obtain ⟨e0, e1, -⟩ := idx_facts t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight block of any point is the whole weight matrix. -/
theorem wblk_apply (c : Dev nD) (t : Fin cfg1.N) (k : Fin 128) (q : Fin 128) :
    iblk1 V c 1 t (ix2 k q) = V c main_v8 (ix2 k q) := by
  obtain ⟨-, -, e2, e3, -⟩ := idx_facts t
  show V c main_v8 (((cfg1.win 1).blk t).view.emb (ix2 k q)) = V c main_v8 (ix2 k q)
  refine congrArg (V c main_v8) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias block of any point is the whole bias row. -/
theorem bblk_apply (c : Dev nD) (t : Fin cfg1.N) (z : Fin 1) (q : Fin 128) :
    iblk1 V c 2 t (ix2 z q) = V c main_v9 (ix2 z q) := by
  obtain ⟨-, -, -, -, e4, e5, -⟩ := idx_facts t
  show V c main_v9 (((cfg1.win 2).blk t).view.emb (ix2 z q)) = V c main_v9 (ix2 z q)
  refine congrArg (V c main_v9) (funext fun a => Fin.ext ?_)
  match a with
  | ⟨0, _⟩ => show win1_2.index t (0 : Fin 2) * 1 + 1 * z.val = z.val; omega
  | ⟨1, _⟩ => show win1_2.index t (1 : Fin 2) * 128 + 1 * q.val = q.val; omega

/-- WHAT POINT t WRITES BACK is block t of the whole-array function of the arrays as the call finds them. -/
theorem flushed_eq (c : Dev nD) (t : Fin cfg1.N) :
    (dat1 V c).flushed 3 t = ((cfg1.win 3).blk t).view.read (Elt Ideal) (proj (V c main_arg1) (V c main_v8) (V c main_v9)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  have ht : t.val < 10 := lt_of_lt_of_eq t.isLt (show cfg1.N = 10 from by decide)
  have hrow : ((((cfg1.win 3).blk t).view.emb (ix2 p q)) 0).val = t.val * 5000 + p.val := by
    show win1_3.index t (0 : Fin 2) * 5000 + 1 * p.val = _; omega
  have hcol : ((((cfg1.win 3).blk t).view.emb (ix2 p q)) 1).val = q.val := by
    show win1_3.index t (1 : Fin 2) * 128 + 1 * q.val = _; omega
  refine (RegionPay.pay128_apply (iblk1 V c 0 t) (iblk1 V c 1 t) (iblk1 V c 2 t) p q).trans ?_
  show _ = proj (V c main_arg1) (V c main_v8) (V c main_v9) (((cfg1.win 3).blk t).view.emb (ix2 p q))
  unfold proj
  have hq : (⟨((((cfg1.win 3).blk t).view.emb (ix2 p q)) 1).val, ((((cfg1.win 3).blk t).view.emb (ix2 p q)) 1).isLt⟩ : Fin 128) = q := Fin.ext hcol
  rw [hq, bblk_apply V c t 0 q]
  refine congrArg (· + V c main_v9 (ix2 (0 : Fin 1) q)) (Finset.sum_congr rfl fun k _ => ?_)
  rw [wblk_apply V c t k q, xblk_apply V c t p k ⟨_, ((((cfg1.win 3).blk t).view.emb (ix2 p q)) 0).isLt⟩ hrow]

/-- An index of the output is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v10).slice (win1_3.rect t)).set ↔ _
  rw [View.set_slice_whole, Rect.mem_set_unit]
  exact Iff.rfl

/-- Every index of the output is in the block of the point its row belongs to. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the call is the whole-array function of the arrays the call reads. -/
theorem final (c : Dev nD) :
    (dat1 V c).arrAt 3 cfg1.N = proj (V c main_arg1) (V c main_v8) (V c main_v9) :=
  (dat1 V c).arrAt_eq_of_cover 3 _ (fun t _ => flushed_eq V c t) cover

end Cert.KernelIdeal.Region1

end
-- ==== Proof.Lin.lean ====
/-
  A linear layer read at one entry.

  For a 50000 × 128 table x of node features, a 128 × 128 weight matrix W with one row per output feature, and a bias b
  of 128 entries, the layer's output at node r and output feature q is Σₖ x(r, k) · W(q, k) + b(q).
-/
import Idealize.ShloMosaic.PureOps.Ideal
import Idealize.ShloMosaic.Lib.ValueIdx

noncomputable section

namespace Cert.Lin

open Idealize.ShloMosaic Idealize.ShloMosaic.ValueIdx

/-- Node r, output feature q ↦ Σₖ x(r, k) · W(q, k) + b(q). -/
def lin (x : (⟨2, ![50000, 128]⟩ : Shape).Idx → EReal) (W : (⟨2, ![128, 128]⟩ : Shape).Idx → EReal)
    (b : (⟨1, ![128]⟩ : Shape).Idx → EReal) : (⟨2, ![50000, 128]⟩ : Shape).Idx → EReal :=
  fun i => (∑ k : Fin 128, x (ix2 (⟨(i 0).val, (i 0).isLt⟩ : Fin 50000) k) * W (ix2 (⟨(i 1).val, (i 1).isLt⟩ : Fin 128) k))
    + b (ix1 (⟨(i 1).val, (i 1).isLt⟩ : Fin 128))

theorem lin_apply (x : (⟨2, ![50000, 128]⟩ : Shape).Idx → EReal) (W : (⟨2, ![128, 128]⟩ : Shape).Idx → EReal)
    (b : (⟨1, ![128]⟩ : Shape).Idx → EReal) (r : Fin 50000) (q : Fin 128) :
    lin x W b (ix2 r q) = (∑ k : Fin 128, x (ix2 r k) * W (ix2 q k)) + b (ix1 q) := rfl

end Cert.Lin

end
-- ==== Proof.KWh.lean ====
/-
  The three projected tables of the kernel's program, each as a linear layer.

  The first call multiplies the first node type's features by the two weight matrices, each transposed, laid side by side
  (128 × 256), and adds the two biases laid end to end (1 × 256).  Columns 0 … 127 of its output read the first weight
  matrix and the first bias, columns 128 … 255 the second ones: column q of the left half of the side-by-side matrix at row
  k is W₁(q, k), and column 128 + q is W₂(q, k).  So the left half of the output is the linear layer of (W₁, b₁) and the
  right half the linear layer of (W₂, b₂).  The second call multiplies the second node type's features by the third weight
  matrix transposed and adds the third bias as a row: the linear layer of (W₃, b₃).
-/
import proofs.«409904_j11716670783786_2_alg».proof.Proof.Region0
import proofs.«409904_j11716670783786_2_alg».proof.Proof.Region1
import proofs.«409904_j11716670783786_2_alg».proof.Proof.Lin
import Idealize.ShloMosaic.Lib.Pipeline.Value
import Idealize.ShloMosaic.Lib.ValueIdx

noncomputable section

namespace Cert.KernelIdeal.KWh

open Idealize.ShloMosaic Idealize.ShloMosaic.ValueIdx Cert.KernelIdeal Cert.KernelIdeal.Gen Cert.Lin

/-- A weight matrix transposed. -/
def tr (W : FVec Ideal S128x128 .f32) : FVec Ideal S128x128 .f32 :=
  transpose S128x128 [1, 0] W transposes_S128x128_S128x128_1_0

theorem tr_apply (W : FVec Ideal S128x128 .f32) (k q : Fin 128) : tr W (ix2 k q) = W (ix2 q k) :=
  transpose_apply ([1, 0] : List (Fin S128x128.rank)) W transposes_S128x128_S128x128_1_0 (ix2 k q) (ix2 q k)
    (fun b => match b with | ⟨0, _⟩ => rfl | ⟨1, _⟩ => rfl)

/-- Two transposed weight matrices side by side. -/
def wcat (W1 W2 : FVec Ideal S128x128 .f32) : FVec Ideal S128x256 .f32 :=
  concatenate S128x256 1 [⟨S128x128, tr W1⟩, ⟨S128x128, tr W2⟩] concatenates_S128x128_S128x128_S128x256_d1

/-- Two biases end to end, as a row. -/
def bcat (b1 b2 : FVec Ideal S128 .f32) : FVec Ideal S1x256 .f32 :=
  shapeCast S1x256 (concatenate S256 0 [⟨S128, b1⟩, ⟨S128, b2⟩] concatenates_S128_S128_S256_d0) shapeCasts_S256_S1x256

/-- A bias as a row. -/
def brow (b : FVec Ideal S128 .f32) : FVec Ideal S1x128 .f32 := shapeCast S1x128 b shapeCasts_S128_S1x128

theorem wcat_left (W1 W2 : FVec Ideal S128x128 .f32) (k q : Fin 128) (q' : Fin 256) (hq : q'.val = q.val) :
    wcat W1 W2 (ix2 k q') = W1 (ix2 q k) :=
  (concatenate_pair_apply_left (1 : Fin S128x256.rank) (tr W1) (tr W2) concatenates_S128x128_S128x128_S128x256_d1
    (ix2 k q') rfl (ix2 k q) (fun b => match b with | ⟨0, _⟩ => rfl | ⟨1, _⟩ => hq.symm)).trans (tr_apply W1 k q)

theorem wcat_right (W1 W2 : FVec Ideal S128x128 .f32) (k q : Fin 128) (q' : Fin 256) (hq : q'.val = q.val + 128) :
    wcat W1 W2 (ix2 k q') = W2 (ix2 q k) :=
  (concatenate_pair_apply_right (1 : Fin S128x256.rank) (tr W1) (tr W2) concatenates_S128x128_S128x128_S128x256_d1
    (ix2 k q') rfl rfl (ix2 k q)
    (fun b hb => match b, hb with | ⟨0, _⟩, _ => rfl | ⟨1, _⟩, hb => (hb rfl).elim)
    (by show q.val + 128 = q'.val; omega)).trans (tr_apply W2 k q)

theorem row_pos (q' : Fin 256) : (S256.rowMajor (ix1 q')).val = (S1x256.rowMajor (ix2 (0 : Fin 1) q')).val := by
  rw [Shape.rowMajor_val_one, Shape.rowMajor_val_two]
  show q'.val = 0 * 256 + q'.val
  omega

theorem bcat_left (b1 b2 : FVec Ideal S128 .f32) (q : Fin 128) (q' : Fin 256) (hq : q'.val = q.val) :
    bcat b1 b2 (ix2 (0 : Fin 1) q') = b1 (ix1 q) :=
  (shapeCast_apply _ shapeCasts_S256_S1x256 (ix2 (0 : Fin 1) q') (ix1 q') (row_pos q')).trans
    (concatenate_pair_apply_left (0 : Fin S256.rank) b1 b2 concatenates_S128_S128_S256_d0 (ix1 q') rfl (ix1 q)
      (fun b => match b with | ⟨0, _⟩ => hq.symm))

theorem bcat_right (b1 b2 : FVec Ideal S128 .f32) (q : Fin 128) (q' : Fin 256) (hq : q'.val = q.val + 128) :
    bcat b1 b2 (ix2 (0 : Fin 1) q') = b2 (ix1 q) :=
  (shapeCast_apply _ shapeCasts_S256_S1x256 (ix2 (0 : Fin 1) q') (ix1 q') (row_pos q')).trans
    (concatenate_pair_apply_right (0 : Fin S256.rank) b1 b2 concatenates_S128_S128_S256_d0 (ix1 q') rfl rfl (ix1 q)
      (fun b hb => match b, hb with | ⟨0, _⟩, hb => (hb rfl).elim)
      (by show q.val + 128 = q'.val; omega))

theorem brow_apply (b : FVec Ideal S128 .f32) (q : Fin 128) : brow b (ix2 (0 : Fin 1) q) = b (ix1 q) :=
  shapeCast_apply b shapeCasts_S128_S1x128 (ix2 (0 : Fin 1) q) (ix1 q) (by
    rw [Shape.rowMajor_val_one, Shape.rowMajor_val_two]
    show q.val = 0 * 128 + q.val
    omega)

/-- THE LEFT HALF of the first call's output is the linear layer of the first weight matrix and bias. -/
theorem slice_lo (x : FVec Ideal S50000x128 .f32) (W1 W2 : FVec Ideal S128x128 .f32) (b1 b2 : FVec Ideal S128 .f32) :
    extractStridedSlice S50000x128 ![0, 0] (Region0.proj x (wcat W1 W2) (bcat b1 b2)) slices_S50000x256_S50000x128_0_0
      = lin x W1 b1 := by
  funext j
  obtain ⟨r, q, rfl⟩ : ∃ (r : Fin 50000) (q : Fin 128), j = ix2 r q := ⟨j 0, j 1, eq_ix2 j⟩
  have hq' : q.val < 256 := by have := q.isLt; omega
  refine (extractStridedSlice_apply ![0, 0] _ slices_S50000x256_S50000x128_0_0 (ix2 r q) (ix2 r (⟨q.val, hq'⟩ : Fin 256))
    (fun a => match a with
      | ⟨0, _⟩ => by show r.val = 0 + r.val; omega
      | ⟨1, _⟩ => by show q.val = 0 + q.val; omega)).trans ?_
  show (∑ k : Fin 128, x (ix2 r k) * wcat W1 W2 (ix2 k (⟨q.val, hq'⟩ : Fin 256)))
      + bcat b1 b2 (ix2 (0 : Fin 1) (⟨q.val, hq'⟩ : Fin 256))
    = (∑ k : Fin 128, x (ix2 r k) * W1 (ix2 q k)) + b1 (ix1 q)
  rw [bcat_left b1 b2 q _ rfl]
  refine congrArg (· + b1 (ix1 q)) (Finset.sum_congr rfl fun k _ => ?_)
  rw [wcat_left W1 W2 k q _ rfl]

/-- THE RIGHT HALF of the first call's output is the linear layer of the second weight matrix and bias. -/
theorem slice_hi (x : FVec Ideal S50000x128 .f32) (W1 W2 : FVec Ideal S128x128 .f32) (b1 b2 : FVec Ideal S128 .f32) :
    extractStridedSlice S50000x128 ![0, 128] (Region0.proj x (wcat W1 W2) (bcat b1 b2)) slices_S50000x256_S50000x128_0_128
      = lin x W2 b2 := by
  funext j
  obtain ⟨r, q, rfl⟩ : ∃ (r : Fin 50000) (q : Fin 128), j = ix2 r q := ⟨j 0, j 1, eq_ix2 j⟩
  have hq' : q.val + 128 < 256 := by have := q.isLt; omega
  refine (extractStridedSlice_apply ![0, 128] _ slices_S50000x256_S50000x128_0_128 (ix2 r q) (ix2 r (⟨q.val + 128, hq'⟩ : Fin 256))
    (fun a => match a with
      | ⟨0, _⟩ => by show r.val = 0 + r.val; omega
      | ⟨1, _⟩ => by show q.val + 128 = 128 + q.val; omega)).trans ?_
  show (∑ k : Fin 128, x (ix2 r k) * wcat W1 W2 (ix2 k (⟨q.val + 128, hq'⟩ : Fin 256)))
      + bcat b1 b2 (ix2 (0 : Fin 1) (⟨q.val + 128, hq'⟩ : Fin 256))
    = (∑ k : Fin 128, x (ix2 r k) * W2 (ix2 q k)) + b2 (ix1 q)
  rw [bcat_right b1 b2 q _ rfl]
  refine congrArg (· + b2 (ix1 q)) (Finset.sum_congr rfl fun k _ => ?_)
  rw [wcat_right W1 W2 k q _ rfl]

/-- THE SECOND CALL's output is the linear layer of the third weight matrix and bias. -/
theorem proj1_eq (x : FVec Ideal S50000x128 .f32) (W : FVec Ideal S128x128 .f32) (b : FVec Ideal S128 .f32) :
    Region1.proj x (tr W) (brow b) = lin x W b := by
  funext j
  obtain ⟨r, q, rfl⟩ : ∃ (r : Fin 50000) (q : Fin 128), j = ix2 r q := ⟨j 0, j 1, eq_ix2 j⟩
  show (∑ k : Fin 128, x (ix2 r k) * tr W (ix2 k q)) + brow b (ix2 (0 : Fin 1) q)
    = (∑ k : Fin 128, x (ix2 r k) * W (ix2 q k)) + b (ix1 q)
  rw [brow_apply b q]
  refine congrArg (· + b (ix1 q)) (Finset.sum_congr rfl fun k _ => ?_)
  rw [tr_apply W k q]

end Cert.KernelIdeal.KWh

end
-- ==== Proof.Spec.lean ====
/-
  The layer's result as a function of its arguments.

  For each of the three relations a linear layer of the source node type's features gives one row per source node; the
  relation's edge list picks one row per edge; the picked rows are averaged per destination node (a node without incoming
  edges gets zero).  The first node type's new features are the sum of the means of the two relations that end there, the
  second node type's the mean of the one relation that ends there; the result stacks the two.
-/
import proofs.«409904_j11716670783786_2_alg».proof.Proof.Tail
import proofs.«409904_j11716670783786_2_alg».proof.Proof.Lin

noncomputable section

namespace Cert.Spec

open Idealize.ShloMosaic Cert.KernelIdeal Cert.Lin

/-- Three linear layers read once per edge, the three per-destination means, the sum of the two that end at the first
    node type, and the stack of the two node types. -/
def spec (x0 x1 : FVec Ideal S50000x128 .f32) (w2 : FVec Ideal S128x128 .f32) (b3 : FVec Ideal S128 .f32)
    (w4 : FVec Ideal S128x128 .f32) (b5 : FVec Ideal S128 .f32) (w6 : FVec Ideal S128x128 .f32) (b7 : FVec Ideal S128 .f32)
    (s8 d9 s10 d11 s12 d13 : IVec S600000 32) : FVec Ideal S2x50000x128 .f32 :=
  Tail.outOf (F := Ideal) (Tail.gatherRows (F := Ideal) (lin x0 w2 b3) s8) (Tail.gatherRows (F := Ideal) (lin x0 w4 b5) s10)
    (Tail.gatherRows (F := Ideal) (lin x1 w6 b7) s12) d9 d11 d13

end Cert.Spec

end
-- ==== Proof.KernelOut.lean ====
/-
  The kernel's program, read from its last host operation back to its arguments.

  After the last region the program reads the three projected tables once per edge (three guarded reads), takes the three
  per-destination means, adds the two that end at the first node type and stacks the two node types.  Walking the buffer
  contents back through the segments: a buffer no operation of a stretch writes holds after the stretch what it held
  before; the guarded reads take the left and right halves of the first call's output and the second call's output; each
  call's output is the whole-array function of its inputs; and the calls' weight and bias inputs are the transposed,
  side-by-side and end-to-end arrangements of the program's arguments.  Each projected table is then a linear layer of
  the arguments, and under in-range source indices each guarded read is the plain read.
-/
import proofs.«409904_j11716670783786_2_alg».proof.Proof.Gen.KernelIdeal.Frame
import proofs.«409904_j11716670783786_2_alg».proof.Proof.Tail
import proofs.«409904_j11716670783786_2_alg».proof.Proof.KOut7
import proofs.«409904_j11716670783786_2_alg».proof.Proof.KTake0
import proofs.«409904_j11716670783786_2_alg».proof.Proof.KTake1
import proofs.«409904_j11716670783786_2_alg».proof.Proof.KTake2
import proofs.«409904_j11716670783786_2_alg».proof.Proof.Region0
import proofs.«409904_j11716670783786_2_alg».proof.Proof.Region1
import proofs.«409904_j11716670783786_2_alg».proof.Proof.KWh
import proofs.«409904_j11716670783786_2_alg».proof.Proof.Lin
import proofs.«409904_j11716670783786_2_alg».proof.Proof.Spec
import Idealize.ShloMosaic.Lib.StableHlo.Run

set_option maxRecDepth 16384

noncomputable section

namespace Cert.KernelIdeal.Out

open Idealize.ShloMosaic Idealize.ShloMosaic.TcCoe Idealize.SL.Sem Idealize.ShloMosaic.StableHlo
open Cert.KernelIdeal Cert.KernelIdeal.Gen Cert.Lin

variable (m : (ℓ : Loc nD τ sig) → Buf (Elt Ideal) ℓ) (ρ : Dev nD → PrngReg)

/-- A stretch of host operations none of which writes a buffer leaves it as it was. -/
local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers a stretch does not write -/

theorem v12_76 (c : Dev nD) : W7 m ρ c (Proc.devRef .tc main_v12) = W6 m ρ c (Proc.devRef .tc main_v12) := by unwritten hostOps2_2
theorem v11_76 (c : Dev nD) : W7 m ρ c (Proc.devRef .tc main_v11) = W6 m ρ c (Proc.devRef .tc main_v11) := by unwritten hostOps2_2
theorem v11_65 (c : Dev nD) : W6 m ρ c (Proc.devRef .tc main_v11) = W5 m ρ c (Proc.devRef .tc main_v11) := by unwritten hostOps2_1
theorem v10_65 (c : Dev nD) : W6 m ρ c (Proc.devRef .tc main_v10) = W5 m ρ c (Proc.devRef .tc main_v10) := by unwritten hostOps2_1
theorem v10_54 (c : Dev nD) : W5 m ρ c (Proc.devRef .tc main_v10) = W4 m ρ c (Proc.devRef .tc main_v10) := by unwritten hostOps2
theorem v7_54 (c : Dev nD) : W5 m ρ c (Proc.devRef .tc main_v7) = W4 m ρ c (Proc.devRef .tc main_v7) := by unwritten hostOps2

/-! ## The arguments, at the boundaries where they are read -/

theorem main_arg9_7 (c : Dev nD) : W7 m ρ c (Proc.devRef .tc main_arg9) = m ((c : Thread nD τ).loc main_arg9) :=
  (show W8 m ρ c (Proc.devRef .tc main_arg9) = W7 m ρ c (Proc.devRef .tc main_arg9) by unwritten hostOps2_3).symm.trans (W8_main_arg9 m ρ c)
theorem main_arg11_7 (c : Dev nD) : W7 m ρ c (Proc.devRef .tc main_arg11) = m ((c : Thread nD τ).loc main_arg11) :=
  (show W8 m ρ c (Proc.devRef .tc main_arg11) = W7 m ρ c (Proc.devRef .tc main_arg11) by unwritten hostOps2_3).symm.trans (W8_main_arg11 m ρ c)
theorem main_arg13_7 (c : Dev nD) : W7 m ρ c (Proc.devRef .tc main_arg13) = m ((c : Thread nD τ).loc main_arg13) :=
  (show W8 m ρ c (Proc.devRef .tc main_arg13) = W7 m ρ c (Proc.devRef .tc main_arg13) by unwritten hostOps2_3).symm.trans (W8_main_arg13 m ρ c)
theorem main_arg12_7 (c : Dev nD) : W7 m ρ c (Proc.devRef .tc main_arg12) = m ((c : Thread nD τ).loc main_arg12) :=
  (show W8 m ρ c (Proc.devRef .tc main_arg12) = W7 m ρ c (Proc.devRef .tc main_arg12) by unwritten hostOps2_3).symm.trans (W8_main_arg12 m ρ c)
theorem main_arg12_6 (c : Dev nD) : W6 m ρ c (Proc.devRef .tc main_arg12) = m ((c : Thread nD τ).loc main_arg12) :=
  (show W7 m ρ c (Proc.devRef .tc main_arg12) = W6 m ρ c (Proc.devRef .tc main_arg12) by unwritten hostOps2_2).symm.trans (main_arg12_7 m ρ c)
theorem main_arg10_7 (c : Dev nD) : W7 m ρ c (Proc.devRef .tc main_arg10) = m ((c : Thread nD τ).loc main_arg10) :=
  (show W8 m ρ c (Proc.devRef .tc main_arg10) = W7 m ρ c (Proc.devRef .tc main_arg10) by unwritten hostOps2_3).symm.trans (W8_main_arg10 m ρ c)
theorem main_arg10_6 (c : Dev nD) : W6 m ρ c (Proc.devRef .tc main_arg10) = m ((c : Thread nD τ).loc main_arg10) :=
  (show W7 m ρ c (Proc.devRef .tc main_arg10) = W6 m ρ c (Proc.devRef .tc main_arg10) by unwritten hostOps2_2).symm.trans (main_arg10_7 m ρ c)
theorem main_arg10_5 (c : Dev nD) : W5 m ρ c (Proc.devRef .tc main_arg10) = m ((c : Thread nD τ).loc main_arg10) :=
  (show W6 m ρ c (Proc.devRef .tc main_arg10) = W5 m ρ c (Proc.devRef .tc main_arg10) by unwritten hostOps2_1).symm.trans (main_arg10_6 m ρ c)
theorem main_arg8_7 (c : Dev nD) : W7 m ρ c (Proc.devRef .tc main_arg8) = m ((c : Thread nD τ).loc main_arg8) :=
  (show W8 m ρ c (Proc.devRef .tc main_arg8) = W7 m ρ c (Proc.devRef .tc main_arg8) by unwritten hostOps2_3).symm.trans (W8_main_arg8 m ρ c)
theorem main_arg8_6 (c : Dev nD) : W6 m ρ c (Proc.devRef .tc main_arg8) = m ((c : Thread nD τ).loc main_arg8) :=
  (show W7 m ρ c (Proc.devRef .tc main_arg8) = W6 m ρ c (Proc.devRef .tc main_arg8) by unwritten hostOps2_2).symm.trans (main_arg8_7 m ρ c)
theorem main_arg8_5 (c : Dev nD) : W5 m ρ c (Proc.devRef .tc main_arg8) = m ((c : Thread nD τ).loc main_arg8) :=
  (show W6 m ρ c (Proc.devRef .tc main_arg8) = W5 m ρ c (Proc.devRef .tc main_arg8) by unwritten hostOps2_1).symm.trans (main_arg8_6 m ρ c)
theorem main_arg8_4 (c : Dev nD) : W4 m ρ c (Proc.devRef .tc main_arg8) = m ((c : Thread nD τ).loc main_arg8) :=
  (show W5 m ρ c (Proc.devRef .tc main_arg8) = W4 m ρ c (Proc.devRef .tc main_arg8) by unwritten hostOps2).symm.trans (main_arg8_5 m ρ c)

/-- At the first boundary a buffer the first stretch does not write is as launched. -/
theorem main_arg0_1 (c : Dev nD) : W1 m ρ c (Proc.devRef .tc main_arg0) = m ((c : Thread nD τ).loc main_arg0) :=
  (show W1 m ρ c (Proc.devRef .tc main_arg0) = W0 m ρ c (Proc.devRef .tc main_arg0) by unwritten hostOps0).trans rfl
theorem main_arg1_1 (c : Dev nD) : W1 m ρ c (Proc.devRef .tc main_arg1) = m ((c : Thread nD τ).loc main_arg1) :=
  (show W1 m ρ c (Proc.devRef .tc main_arg1) = W0 m ρ c (Proc.devRef .tc main_arg1) by unwritten hostOps0).trans rfl
theorem main_arg6_1 (c : Dev nD) : W1 m ρ c (Proc.devRef .tc main_arg6) = m ((c : Thread nD τ).loc main_arg6) :=
  (show W1 m ρ c (Proc.devRef .tc main_arg6) = W0 m ρ c (Proc.devRef .tc main_arg6) by unwritten hostOps0).trans rfl
theorem main_arg7_1 (c : Dev nD) : W1 m ρ c (Proc.devRef .tc main_arg7) = m ((c : Thread nD τ).loc main_arg7) :=
  (show W1 m ρ c (Proc.devRef .tc main_arg7) = W0 m ρ c (Proc.devRef .tc main_arg7) by unwritten hostOps0).trans rfl

theorem main_arg1_2 (c : Dev nD) : W2 m ρ c (Proc.devRef .tc main_arg1) = m ((c : Thread nD τ).loc main_arg1) :=
  (W2_of_ne m ρ c main_arg1 (by decide)).trans (main_arg1_1 m ρ c)
theorem main_arg6_2 (c : Dev nD) : W2 m ρ c (Proc.devRef .tc main_arg6) = m ((c : Thread nD τ).loc main_arg6) :=
  (W2_of_ne m ρ c main_arg6 (by decide)).trans (main_arg6_1 m ρ c)
theorem main_arg7_2 (c : Dev nD) : W2 m ρ c (Proc.devRef .tc main_arg7) = m ((c : Thread nD τ).loc main_arg7) :=
  (W2_of_ne m ρ c main_arg7 (by decide)).trans (main_arg7_1 m ρ c)
theorem main_arg1_3 (c : Dev nD) : W3 m ρ c (Proc.devRef .tc main_arg1) = m ((c : Thread nD τ).loc main_arg1) :=
  (show W3 m ρ c (Proc.devRef .tc main_arg1) = W2 m ρ c (Proc.devRef .tc main_arg1) by unwritten hostOps1).trans (main_arg1_2 m ρ c)

/-! ## The first stretch: the weights side by side, the biases end to end -/

theorem v2_1 (c : Dev nD) : W1 m ρ c (Proc.devRef .tc main_v2) = KWh.wcat (m ((c : Thread nD τ).loc main_arg2)) (m ((c : Thread nD τ).loc main_arg4)) := by
  show StableHlo.after hostOps0 (W0 m ρ c) (Proc.devRef .tc main_v2) = _
  after_results <;> rfl

theorem v4_1 (c : Dev nD) : W1 m ρ c (Proc.devRef .tc main_v4) = KWh.bcat (m ((c : Thread nD τ).loc main_arg3)) (m ((c : Thread nD τ).loc main_arg5)) := by
  show StableHlo.after hostOps0 (W0 m ρ c) (Proc.devRef .tc main_v4) = _
  after_results <;> rfl

/-! ## The first call's output, and the stretch after it -/

theorem v5_2 (c : Dev nD) : W2 m ρ c (Proc.devRef .tc main_v5)
    = Region0.proj (m ((c : Thread nD τ).loc main_arg0)) (KWh.wcat (m ((c : Thread nD τ).loc main_arg2)) (m ((c : Thread nD τ).loc main_arg4))) (KWh.bcat (m ((c : Thread nD τ).loc main_arg3)) (m ((c : Thread nD τ).loc main_arg5))) := by
  refine ((W2_arr m ρ c 3).trans (Region0.final (V1 m ρ) c)).trans ?_
  show Region0.proj (W1 m ρ c (Proc.devRef .tc main_arg0)) (W1 m ρ c (Proc.devRef .tc main_v2)) (W1 m ρ c (Proc.devRef .tc main_v4)) = _
  rw [main_arg0_1, v2_1, v4_1]

theorem v6_3 (c : Dev nD) : W3 m ρ c (Proc.devRef .tc main_v6)
    = extractStridedSlice S50000x128 ![0, 0] (W2 m ρ c (Proc.devRef .tc main_v5)) slices_S50000x256_S50000x128_0_0 := by
  show StableHlo.after hostOps1 (W2 m ρ c) (Proc.devRef .tc main_v6) = _
  generalize W2 m ρ c = W
  after_results <;> rfl

theorem v7_3 (c : Dev nD) : W3 m ρ c (Proc.devRef .tc main_v7)
    = extractStridedSlice S50000x128 ![0, 128] (W2 m ρ c (Proc.devRef .tc main_v5)) slices_S50000x256_S50000x128_0_128 := by
  show StableHlo.after hostOps1 (W2 m ρ c) (Proc.devRef .tc main_v7) = _
  generalize W2 m ρ c = W
  after_results <;> rfl

theorem v8_3 (c : Dev nD) : W3 m ρ c (Proc.devRef .tc main_v8) = KWh.tr (W2 m ρ c (Proc.devRef .tc main_arg6)) := by
  show StableHlo.after hostOps1 (W2 m ρ c) (Proc.devRef .tc main_v8) = _
  generalize W2 m ρ c = W
  after_results <;> rfl

theorem v9_3 (c : Dev nD) : W3 m ρ c (Proc.devRef .tc main_v9) = KWh.brow (W2 m ρ c (Proc.devRef .tc main_arg7)) := by
  show StableHlo.after hostOps1 (W2 m ρ c) (Proc.devRef .tc main_v9) = _
  generalize W2 m ρ c = W
  after_results <;> rfl

/-! ## The second call's output, and the buffers it leaves alone -/

theorem v10_4 (c : Dev nD) : W4 m ρ c (Proc.devRef .tc main_v10)
    = Region1.proj (m ((c : Thread nD τ).loc main_arg1)) (KWh.tr (m ((c : Thread nD τ).loc main_arg6))) (KWh.brow (m ((c : Thread nD τ).loc main_arg7))) := by
  refine ((W4_arr m ρ c 3).trans (Region1.final (V3 m ρ) c)).trans ?_
  show Region1.proj (W3 m ρ c (Proc.devRef .tc main_arg1)) (W3 m ρ c (Proc.devRef .tc main_v8)) (W3 m ρ c (Proc.devRef .tc main_v9)) = _
  rw [main_arg1_3, v8_3, v9_3, main_arg6_2, main_arg7_2]

theorem v6_4 (c : Dev nD) : W4 m ρ c (Proc.devRef .tc main_v6) = W3 m ρ c (Proc.devRef .tc main_v6) := W4_of_ne m ρ c main_v6 (by decide)
theorem v7_4 (c : Dev nD) : W4 m ρ c (Proc.devRef .tc main_v7) = W3 m ρ c (Proc.devRef .tc main_v7) := W4_of_ne m ρ c main_v7 (by decide)

/-! ## The result -/

/-- THE KERNEL'S RESULT is the layer's result, when every source index names a row of its table. -/
theorem out_eq (c : Dev nD)
    (h8 : ∀ e, 0 ≤ ((m ((c : Thread nD τ).loc main_arg8) : IVec S600000 32) e).toInt ∧ ((m ((c : Thread nD τ).loc main_arg8) : IVec S600000 32) e).toInt < 50000)
    (h10 : ∀ e, 0 ≤ ((m ((c : Thread nD τ).loc main_arg10) : IVec S600000 32) e).toInt ∧ ((m ((c : Thread nD τ).loc main_arg10) : IVec S600000 32) e).toInt < 50000)
    (h12 : ∀ e, 0 ≤ ((m ((c : Thread nD τ).loc main_arg12) : IVec S600000 32) e).toInt ∧ ((m ((c : Thread nD τ).loc main_arg12) : IVec S600000 32) e).toInt < 50000) :
    W8 m ρ c (Proc.devRef .tc main_v53) = Cert.Spec.spec (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) := by
  rw [out_7, take2_6, v12_76, take1_5, v11_76, v11_65, take0_4, main_arg9_7, main_arg11_7, main_arg13_7,
    v10_65, v10_54, v10_4, main_arg12_6, v7_54, v7_4, v7_3, main_arg10_5, v6_4, v6_3, main_arg8_4, v5_2,
    KWh.slice_lo, KWh.slice_hi, KWh.proj1_eq,
    Tail.takeRows_eq_gatherRows _ _ h8, Tail.takeRows_eq_gatherRows _ _ h10, Tail.takeRows_eq_gatherRows _ _ h12]
  rfl

end Cert.KernelIdeal.Out

end
-- ==== Proof.RWh.lean ====
/-
  The reference program's result as the layer's result.

  The reference computes each relation's table as a product of the features with the transposed weight matrix plus the
  bias broadcast down the rows: at node r, output feature q that is Σₖ x(r, k) · W(q, k) + b(q), the linear layer.  It
  then reads the table once per edge by the plain read, takes the per-destination mean, adds the two means that end at the
  first node type and stacks the two node types — the same operations, with the same dimension records, as the layer's
  result is written with.
-/
import proofs.«409904_j11716670783786_2_alg».proof.Proof.Gen.ReferenceIdeal.Run
import proofs.«409904_j11716670783786_2_alg».proof.Proof.Spec
import proofs.«409904_j11716670783786_2_alg».proof.Proof.LibDotPlain
import Idealize.ShloMosaic.Lib.Pipeline.Value
import Idealize.ShloMosaic.Lib.ValueIdx

set_option maxRecDepth 16384

noncomputable section

namespace Cert.ReferenceIdeal.RWh

open Idealize.ShloMosaic Idealize.ShloMosaic.TcCoe Idealize.ShloMosaic.ValueIdx Idealize.SL.Sem
open Cert.ReferenceIdeal Cert.ReferenceIdeal.Gen Cert.Lin

/-- The reference's table of one relation: features times the transposed weight matrix, plus the bias on every row. -/
def refWh {F : FTy → Type} [FloatOps F] (x : FVec F S50000x128 .f32) (W : FVec F S128x128 .f32) (b : FVec F S128 .f32) :
    FVec F S50000x128 .f32 :=
  addf (Host.dotGeneral dot_S50000x128_S128x128_S50000x128_1_0_0_1_n_n none x
      (transpose S128x128 [1, 0] W transposes_S128x128_S128x128_1_0))
    (broadcastInDim S50000x128 ![0, 1] bcast_S1x128_S50000x128_0_1 (broadcastInDim S1x128 ![1] bcast_S128_S1x128_1 b))

/-- THE REFERENCE'S TABLE IS THE LINEAR LAYER. -/
theorem refWh_eq (x : FVec Ideal S50000x128 .f32) (W : FVec Ideal S128x128 .f32) (b : FVec Ideal S128 .f32) :
    refWh (F := Ideal) x W b = lin x W b := by
  funext j
  obtain ⟨r, q, rfl⟩ : ∃ (r : Fin 50000) (q : Fin 128), j = ix2 r q := ⟨j 0, j 1, eq_ix2 j⟩
  show Host.dotGeneral (F := Ideal) dot_S50000x128_S128x128_S50000x128_1_0_0_1_n_n none x
        (transpose S128x128 [1, 0] W transposes_S128x128_S128x128_1_0) (ix2 r q)
      + broadcastInDim S50000x128 ![0, 1] bcast_S1x128_S50000x128_0_1 (broadcastInDim S1x128 ![1] bcast_S128_S1x128_1 b) (ix2 r q)
    = (∑ k : Fin 128, x (ix2 r k) * W (ix2 q k)) + b (ix1 q)
  refine congrArg₂ (· + ·) ?_ ?_
  · refine (Cert.LibDot.dg_plain 50000 128 128 x (transpose S128x128 [1, 0] W transposes_S128x128_S128x128_1_0) r q).trans
      (Finset.sum_congr rfl fun k _ => ?_)
    rw [transpose_apply ([1, 0] : List (Fin S128x128.rank)) W transposes_S128x128_S128x128_1_0 (ix2 k q) (ix2 q k)
      (fun b => match b with | ⟨0, _⟩ => rfl | ⟨1, _⟩ => rfl)]
  · refine (broadcastInDim_apply ![0, 1] bcast_S1x128_S50000x128_0_1 _ (ix2 r q) (ix2 (0 : Fin 1) q) (fun a => match a with
        | ⟨0, _⟩ => by show (0 : Nat) = if (1 : Nat) = 1 then 0 else _; rw [if_pos rfl]
        | ⟨1, _⟩ => by show q.val = if (128 : Nat) = 1 then 0 else q.val; rw [if_neg (by decide)])).trans ?_
    exact broadcastInDim_apply ![1] bcast_S128_S1x128_1 b (ix2 (0 : Fin 1) q) (ix1 q) (fun a => match a with
        | ⟨0, _⟩ => by show q.val = if (128 : Nat) = 1 then 0 else q.val; rw [if_neg (by decide)])

/-- The reference's result term with the three tables named: the same operations over the same dimension records as the
    layer's result. -/
theorem res_struct {F : FTy → Type} [FloatOps F] (m : (ℓ : Loc nD τ sig) → Buf (Elt F) ℓ) (c : Dev nD) :
    Value.res_main_v75 (F := F) m c
      = Cert.KernelIdeal.Tail.outOf (F := F)
          (Cert.KernelIdeal.Tail.gatherRows (F := F) (refWh (m ((c.tc : Thread nD τ).loc main_arg0)) (m ((c.tc : Thread nD τ).loc main_arg2)) (m ((c.tc : Thread nD τ).loc main_arg3))) (m ((c.tc : Thread nD τ).loc main_arg8)))
          (Cert.KernelIdeal.Tail.gatherRows (F := F) (refWh (m ((c.tc : Thread nD τ).loc main_arg0)) (m ((c.tc : Thread nD τ).loc main_arg4)) (m ((c.tc : Thread nD τ).loc main_arg5))) (m ((c.tc : Thread nD τ).loc main_arg10)))
          (Cert.KernelIdeal.Tail.gatherRows (F := F) (refWh (m ((c.tc : Thread nD τ).loc main_arg1)) (m ((c.tc : Thread nD τ).loc main_arg6)) (m ((c.tc : Thread nD τ).loc main_arg7))) (m ((c.tc : Thread nD τ).loc main_arg12)))
          (m ((c.tc : Thread nD τ).loc main_arg9)) (m ((c.tc : Thread nD τ).loc main_arg11)) (m ((c.tc : Thread nD τ).loc main_arg13)) := rfl

/-- THE REFERENCE'S RESULT IS THE LAYER'S RESULT. -/
theorem res_eq (m : (ℓ : Loc nD τ sig) → Buf (Elt Ideal) ℓ) (c : Dev nD) :
    Value.res_main_v75 (F := Ideal) m c
      = Cert.Spec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  rw [res_struct (F := Ideal) m c, refWh_eq, refWh_eq, refWh_eq]
  rfl

end Cert.ReferenceIdeal.RWh

end
-- ==== Proof.PreDecode.lean ====
/-
  What the precondition says about the three source-index arrays.

  The precondition is a conjunction, written as a chain of one-bit conjunctions of scalar flags: the finiteness flags of
  the eight float arrays first, then one flag per source-index array.  The flag of a source-index array is the
  conjunction over all its 600000 entries of "0 ≤ entry" and "entry < 50000" (signed comparisons of 32-bit words with
  the words 0 and 50000).  A chain of conjunctions is 1 exactly when every member is 1, and a conjunction over all
  entries is 1 only when each entry's bit is 1; so under the precondition every source index, read as a signed integer,
  lies in [0, 50000): it names a row of the 50000-row table it is used to read.
-/
import proofs.«409904_j11716670783786_2_alg».proof.Pre_finite_inputs
import Idealize.ShloMosaic.Lib.ReduceAll
import Idealize.ShloMosaic.Lib.ValueIdx

noncomputable section

namespace Cert.PreDecode

open Idealize.ShloMosaic Cert.Pre_finite_inputs

/-- The scalar shape has one index. -/
instance subsingleton_scalar_idx : Subsingleton S_.Idx := ⟨fun a b => funext fun d => d.elim0⟩

/-- One array's flag: if the conjunction over all entries of "0 ≤ a e" and "a e < 50000" is 1, every entry is in
    [0, 50000) as a signed integer. -/
theorem range_of_flag (a : IVec S600000 32) (hb : S_.BroadcastsInDim S600000 (![] : Fin 0 → Fin S600000.rank))
    (hr : S600000.ReducesTo [0] S_) (hu : 0 < S_.numel) (j : S_.Idx)
    (h : Host.reduce IntOp.andi
        (andi (cmpi .sge a (broadcastInDim S600000 ![] hb (constantI S_ 32 0#32)))
          (cmpi .slt a (broadcastInDim S600000 ![] hb (constantI S_ 32 50000#32))))
        (constantI S_ 1 1#1) hr hu j = 1#1)
    (e : S600000.Idx) : 0 ≤ (a e).toInt ∧ (a e).toInt < 50000 := by
  have h1 : IntOp.andi (IntOp.cmpi .sge (a e) 0#32) (IntOp.cmpi .slt (a e) 50000#32) = 1#1 :=
    Host.reduce_andi_all _ _ hr hu j h e
  obtain ⟨h2, h3⟩ := IntOp.andi_eq_one.1 h1
  have z0 : (0#32 : BitVec 32).toInt = 0 := by decide
  have z1 : (50000#32 : BitVec 32).toInt = 50000 := by decide
  have h2' := IntOp.cmpi_sge.1 h2
  have h3' := IntOp.cmpi_slt.1 h3
  rw [z0] at h2'
  rw [z1] at h3'
  exact ⟨h2', h3'⟩

variable [Cert.Pre_finite_inputs.Facts] {F : FTy → Type} [FloatOps F]

/-- Under the precondition every entry of each of the three source-index arrays is in [0, 50000). -/
theorem src_ranges (a0 a1 : FVec F S50000x128 .f32) (a2 : FVec F S128x128 .f32) (a3 : FVec F S128 .f32)
    (a4 : FVec F S128x128 .f32) (a5 : FVec F S128 .f32) (a6 : FVec F S128x128 .f32) (a7 : FVec F S128 .f32)
    (a8 a9 a10 a11 a12 a13 : IVec S600000 32)
    (h : Cert.Pre_finite_inputs.fn (F := F) a0 a1 a2 a3 a4 a5 a6 a7 a8 a9 a10 a11 a12 a13 = fun _ => 1#1) :
    (∀ e, 0 ≤ (a8 e).toInt ∧ (a8 e).toInt < 50000) ∧ (∀ e, 0 ≤ (a10 e).toInt ∧ (a10 e).toInt < 50000)
      ∧ (∀ e, 0 ≤ (a12 e).toInt ∧ (a12 e).toInt < 50000) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h01, hC⟩ := IntOp.andi_eq_one.1 h0
  obtain ⟨h02, hB⟩ := IntOp.andi_eq_one.1 h01
  obtain ⟨_, hA⟩ := IntOp.andi_eq_one.1 h02
  exact ⟨range_of_flag a8 _ _ _ _ hA, range_of_flag a10 _ _ _ _ hB, range_of_flag a12 _ _ _ _ hC⟩

end Cert.PreDecode

end
-- ==== Proof.lean ====
/-
  A two-relation-type graph layer: three linear projections, read once per edge and averaged per destination node.

  The kernel's program computes the three projected tables in two tiled calls (the two projections of the first node
  type's features fused into one call over the two weight matrices side by side), reads them once per edge with a guarded
  read, and averages per destination.  The reference computes each table as features times transposed weights plus bias
  and reads it with the plain read.  Over the extended reals each table is, on both sides, the linear layer
  (r, q) ↦ Σₖ x(r, k) · W(q, k) + b(q) — the narrowing of the factors before the kernel's products is the identity and the
  sums are the same sums — and under the precondition every source index names a row of its table, so the guarded read
  is the plain read.  Everything after the reads is the same chain of operations on both sides.  Both programs' results
  are therefore one function of the arguments, stated once (Spec) and met by the kernel's run read back through its
  segments (KernelRun, KernelOut) and by the reference's run (RWh).

  The frames of the two kernel programs are the generated ones; the reference's frame is its run with the result dropped;
  the idealization rewrote no operation, so there is nothing to preserve.
-/
import proofs.«409904_j11716670783786_2_alg».proof.Defs
import proofs.«409904_j11716670783786_2_alg».proof.Proof.Gen.Kernel
import proofs.«409904_j11716670783786_2_alg».proof.Proof.Gen.Kernel.Frame
import proofs.«409904_j11716670783786_2_alg».proof.Proof.Gen.KernelIdeal
import proofs.«409904_j11716670783786_2_alg».proof.Proof.Gen.KernelIdeal.Frame
import proofs.«409904_j11716670783786_2_alg».proof.Proof.Gen.ReferenceIdeal
import proofs.«409904_j11716670783786_2_alg».proof.Proof.Gen.Pre_finite_inputs
import proofs.«409904_j11716670783786_2_alg».proof.Proof.Gen.ReferenceIdeal.Run
import proofs.«409904_j11716670783786_2_alg».proof.Proof.KernelRun
import proofs.«409904_j11716670783786_2_alg».proof.Proof.KernelOut
import proofs.«409904_j11716670783786_2_alg».proof.Proof.RWh
import proofs.«409904_j11716670783786_2_alg».proof.Proof.PreDecode
import Idealize.ShloMosaic.Adequacy
import Idealize.ShloMosaic.Init

noncomputable section

namespace Cert.Proof

open Idealize.ShloMosaic Idealize.SL.Sem

/-- Both idealized programs, run from memories that agree on the arguments, end with the layer's result. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Spec.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run _ _ _).mono (fun r h c => ?_) (Cert.KernelIdeal.RunOut.run_out m ρ)
    obtain ⟨h8, h10, h12⟩ := Cert.PreDecode.src_ranges _ _ _ _ _ _ _ _ _ _ _ _ _ _ (hpre c)
    exact ⟨(h c).1.trans (Cert.KernelIdeal.Out.out_eq m ρ c h8 h10 h12), (h c).2⟩
  · refine (θ_run _ _ _).mono (fun r h c => ?_) (Cert.ReferenceIdeal.Value.run (F := Ideal) m' ρ')
    refine ⟨(h c).1.trans ((Cert.ReferenceIdeal.RWh.res_eq m' c).trans ?_), (h c).2⟩
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
